-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x256x256 : Shape := ⟨4, ![8, 16, 256, 256]⟩
abbrev S8x256x256 : Shape := ⟨3, ![8, 256, 256]⟩
abbrev S_ : Shape := ⟨0, ![]⟩

class Facts : Prop where
  bcast_S_S8x16x256x256 : S_.BroadcastsInDim S8x16x256x256 (![] : Fin 0 → Fin S8x16x256x256.rank)
  reducesTo_S8x16x256x256_S_d0_1_2_3 : S8x16x256x256.ReducesTo [0, 1, 2, 3] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S8x16x256x256 .f32) (main_arg1 : FVec F S8x256x256 .f32) : IVec S_ 1 :=
  let main_v0 : FVec F S8x16x256x256 .f32 := Host.absf main_arg0
  let main_cst : FVec F S_ .f32 := constant S_ .f32 0x7F800000#32
  let main_v1 : FVec F S8x16x256x256 .f32 := broadcastInDim S8x16x256x256 ![] bcast_S_S8x16x256x256 main_cst
  let main_v2 : IVec S8x16x256x256 1 := cmpf .olt main_v0 main_v1
  let main_c : IVec S_ 1 := constantI S_ 1 1#1
  let main_v3 : IVec S_ 1 := (fun x v => Host.reduce IntOp.andi x v reducesTo_S8x16x256x256_S_d0_1_2_3 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  main_v8
-- ==== Kernel.lean ====
abbrev S8x16x256x256 : Shape := ⟨4, ![8, 16, 256, 256]⟩
abbrev S8x256x256 : Shape := ⟨3, ![8, 256, 256]⟩
abbrev S8x8x128 : Shape := ⟨3, ![8, 8, 128]⟩
abbrev S1x16x256x256 : Shape := ⟨4, ![1, 16, 256, 256]⟩
abbrev S1x256x256 : Shape := ⟨3, ![1, 256, 256]⟩
abbrev S1x8x128 : Shape := ⟨3, ![1, 8, 128]⟩
abbrev S1x1 : Shape := ⟨2, ![1, 1]⟩
abbrev S1x32x256 : Shape := ⟨3, ![1, 32, 256]⟩
abbrev S32x256 : Shape := ⟨2, ![32, 256]⟩
abbrev S1x1x32x256 : Shape := ⟨4, ![1, 1, 32, 256]⟩
abbrev S32 : Shape := ⟨1, ![32]⟩
abbrev S32x1 : Shape := ⟨2, ![32, 1]⟩
abbrev S1 : Shape := ⟨1, ![1]⟩
abbrev S8x128 : Shape := ⟨2, ![8, 128]⟩
abbrev S8x1x1 : Shape := ⟨3, ![8, 1, 1]⟩
abbrev S8 : Shape := ⟨1, ![8]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x16x256x256, .f32⟩
  | .hbm, ⟨1, _⟩ => ⟨S8x256x256, .f32⟩
  | .hbm, ⟨2, _⟩ => ⟨S8x8x128, .f32⟩
  | .hbm, ⟨3, _⟩ => ⟨S8x1x1, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x16x256x256, .f32⟩
  | .local _ .vmem, ⟨1, _⟩ => ⟨S1x16x256x256, .f32⟩
  | .local _ .vmem, ⟨2, _⟩ => ⟨S1x256x256, .f32⟩
  | .local _ .vmem, ⟨3, _⟩ => ⟨S1x256x256, .f32⟩
  | .local _ .vmem, ⟨4, _⟩ => ⟨S1x8x128, .f32⟩
  | .local _ .vmem, ⟨5, _⟩ => ⟨S1x8x128, .f32⟩
  | _, _ => ⟨S8x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  v10
def k0_off1 (k0_t1 : Fin k0_t1_loop.trips) : Fin 3 → Nat :=
  let c0_4 : Index := 0#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v12 : Index := Scalar.indexCast v11
  let c0_5 : Index := 0#32
  ![0, v12.toNat, 0]
def k0_off2 (k0_t1 : Fin k0_t1_loop.trips) : Fin 4 → Nat :=
  let c0_8 : Index := 0#32
  let c0_9 : Index := 0#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v17 : Index := Scalar.indexCast v11
  let c0_10 : Index := 0#32
  ![0, 0, v17.toNat, 0]
def k0_off3 (k0_t1 : Fin k0_t1_loop.trips) : Fin 4 → Nat :=
  let c0_11 : Index := 0#32
  let c1 : Index := 1#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v23 : Index := Scalar.indexCast v11
  let c0_12 : Index := 0#32
  ![0, 1, v23.toNat, 0]
def k0_off4 (k0_t1 : Fin k0_t1_loop.trips) : Fin 4 → Nat :=
  let c0_13 : Index := 0#32
  let c2 : Index := 2#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v29 : Index := Scalar.indexCast v11
  let c0_14 : Index := 0#32
  ![0, 2, v29.toNat, 0]
def k0_off5 (k0_t1 : Fin k0_t1_loop.trips) : Fin 4 → Nat :=
  let c0_15 : Index := 0#32
  let c3 : Index := 3#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v35 : Index := Scalar.indexCast v11
  let c0_16 : Index := 0#32
  ![0, 3, v35.toNat, 0]
def k0_off6 (k0_t1 : Fin k0_t1_loop.trips) : Fin 4 → Nat :=
  let c0_17 : Index := 0#32
  let c4 : Index := 4#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v41 : Index := Scalar.indexCast v11
  let c0_18 : Index := 0#32
  ![0, 4, v41.toNat, 0]
def k0_off7 (k0_t1 : Fin k0_t1_loop.trips) : Fin 4 → Nat :=
  let c0_19 : Index := 0#32
  let c5 : Index := 5#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v47 : Index := Scalar.indexCast v11
  let c0_20 : Index := 0#32
  ![0, 5, v47.toNat, 0]
def k0_off8 (k0_t1 : Fin k0_t1_loop.trips) : Fin 4 → Nat :=
  let c0_21 : Index := 0#32
  let c6 : Index := 6#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v53 : Index := Scalar.indexCast v11
  let c0_22 : Index := 0#32
  ![0, 6, v53.toNat, 0]
def k0_off9 (k0_t1 : Fin k0_t1_loop.trips) : Fin 4 → Nat :=
  let c0_23 : Index := 0#32
  let c7 : Index := 7#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v59 : Index := Scalar.indexCast v11
  let c0_24 : Index := 0#32
  ![0, 7, v59.toNat, 0]
def k0_off10 (k0_t1 : Fin k0_t1_loop.trips) : Fin 4 → Nat :=
  let c0_25 : Index := 0#32
  let c8 : Index := 8#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v65 : Index := Scalar.indexCast v11
  let c0_26 : Index := 0#32
  ![0, 8, v65.toNat, 0]
def k0_off11 (k0_t1 : Fin k0_t1_loop.trips) : Fin 4 → Nat :=
  let c0_27 : Index := 0#32
  let c9 : Index := 9#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v71 : Index := Scalar.indexCast v11
  let c0_28 : Index := 0#32
  ![0, 9, v71.toNat, 0]
def k0_off12 (k0_t1 : Fin k0_t1_loop.trips) : Fin 4 → Nat :=
  let c0_29 : Index := 0#32
  let c10 : Index := 10#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v77 : Index := Scalar.indexCast v11
  let c0_30 : Index := 0#32
  ![0, 10, v77.toNat, 0]
def k0_off13 (k0_t1 : Fin k0_t1_loop.trips) : Fin 4 → Nat :=
  let c0_31 : Index := 0#32
  let c11 : Index := 11#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v83 : Index := Scalar.indexCast v11
  let c0_32 : Index := 0#32
  ![0, 11, v83.toNat, 0]
def k0_off14 (k0_t1 : Fin k0_t1_loop.trips) : Fin 4 → Nat :=
  let c0_33 : Index := 0#32
  let c12 : Index := 12#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v89 : Index := Scalar.indexCast v11
  let c0_34 : Index := 0#32
  ![0, 12, v89.toNat, 0]
def k0_off15 (k0_t1 : Fin k0_t1_loop.trips) : Fin 4 → Nat :=
  let c0_35 : Index := 0#32
  let c13 : Index := 13#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v95 : Index := Scalar.indexCast v11
  let c0_36 : Index := 0#32
  ![0, 13, v95.toNat, 0]
def k0_off16 (k0_t1 : Fin k0_t1_loop.trips) : Fin 4 → Nat :=
  let c0_37 : Index := 0#32
  let c14 : Index := 14#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v101 : Index := Scalar.indexCast v11
  let c0_38 : Index := 0#32
  ![0, 14, v101.toNat, 0]
def k0_off17 (k0_t1 : Fin k0_t1_loop.trips) : Fin 4 → Nat :=
  let c0_39 : Index := 0#32
  let c15 : Index := 15#32
  let c0_i32 : BitVec 32 := 0#32
  let c1_i32 : BitVec 32 := 1#32
  let arg4 : BitVec 32 := Scf.iv c0_i32 c1_i32 k0_t1
  let c32_i32 : BitVec 32 := 32#32
  let v10 : BitVec 32 := Scalar.muli arg4 c32_i32
  let v11 : BitVec 32 := v10
  let v107 : Index := Scalar.indexCast v11
  let c0_40 : Index := 0#32
  ![0, 15, v107.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x32x256 : 0 < S1x32x256.numel
  shapeCasts_S1x32x256_S32x256 : S1x32x256.ShapeCasts S32x256
  h_S1x1x32x256 : 0 < S1x1x32x256.numel
  shapeCasts_S1x1x32x256_S32x256 : S1x1x32x256.ShapeCasts S32x256
  reduces_S32x256_S32 : S32x256.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x256.size a ≤ S1x256x256.size a
  k0_off2_inb : ∀ k0_t1 : Fin k0_t1_loop.trips, ∀ a, (k0_off2 k0_t1) a + S1x1x32x256.size a ≤ S1x16x256x256.size a
  k0_off3_inb : ∀ k0_t1 : Fin k0_t1_loop.trips, ∀ a, (k0_off3 k0_t1) a + S1x1x32x256.size a ≤ S1x16x256x256.size a
  k0_off4_inb : ∀ k0_t1 : Fin k0_t1_loop.trips, ∀ a, (k0_off4 k0_t1) a + S1x1x32x256.size a ≤ S1x16x256x256.size a
  k0_off5_inb : ∀ k0_t1 : Fin k0_t1_loop.trips, ∀ a, (k0_off5 k0_t1) a + S1x1x32x256.size a ≤ S1x16x256x256.size a
  k0_off6_inb : ∀ k0_t1 : Fin k0_t1_loop.trips, ∀ a, (k0_off6 k0_t1) a + S1x1x32x256.size a ≤ S1x16x256x256.size a
  k0_off7_inb : ∀ k0_t1 : Fin k0_t1_loop.trips, ∀ a, (k0_off7 k0_t1) a + S1x1x32x256.size a ≤ S1x16x256x256.size a
  k0_off8_inb : ∀ k0_t1 : Fin k0_t1_loop.trips, ∀ a, (k0_off8 k0_t1) a + S1x1x32x256.size a ≤ S1x16x256x256.size a
  k0_off9_inb : ∀ k0_t1 : Fin k0_t1_loop.trips, ∀ a, (k0_off9 k0_t1) a + S1x1x32x256.size a ≤ S1x16x256x256.size a
  k0_off10_inb : ∀ k0_t1 : Fin k0_t1_loop.trips, ∀ a, (k0_off10 k0_t1) a + S1x1x32x256.size a ≤ S1x16x256x256.size a
  k0_off11_inb : ∀ k0_t1 : Fin k0_t1_loop.trips, ∀ a, (k0_off11 k0_t1) a + S1x1x32x256.size a ≤ S1x16x256x256.size a
  k0_off12_inb : ∀ k0_t1 : Fin k0_t1_loop.trips, ∀ a, (k0_off12 k0_t1) a + S1x1x32x256.size a ≤ S1x16x256x256.size a
  k0_off13_inb : ∀ k0_t1 : Fin k0_t1_loop.trips, ∀ a, (k0_off13 k0_t1) a + S1x1x32x256.size a ≤ S1x16x256x256.size a
  k0_off14_inb : ∀ k0_t1 : Fin k0_t1_loop.trips, ∀ a, (k0_off14 k0_t1) a + S1x1x32x256.size a ≤ S1x16x256x256.size a
  k0_off15_inb : ∀ k0_t1 : Fin k0_t1_loop.trips, ∀ a, (k0_off15 k0_t1) a + S1x1x32x256.size a ≤ S1x16x256x256.size a
  k0_off16_inb : ∀ k0_t1 : Fin k0_t1_loop.trips, ∀ a, (k0_off16 k0_t1) a + S1x1x32x256.size a ≤ S1x16x256x256.size a
  k0_off17_inb : ∀ k0_t1 : Fin k0_t1_loop.trips, ∀ a, (k0_off17 k0_t1) a + S1x1x32x256.size a ≤ S1x16x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S8x16x256x256.size a
  hwx0_0 : ∀ i : grid0.Coords, EltTy.bits .f32 = 32 ∨ (Rect.block (s := S8x16x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .f32 = 32 ∨ (Rect.block (s := S8x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x256x256 : Shape := ⟨4, ![8, 16, 256, 256]⟩
abbrev S8x256x256 : Shape := ⟨3, ![8, 256, 256]⟩
abbrev S8x1x256x256 : Shape := ⟨4, ![8, 1, 256, 256]⟩
abbrev S_ : Shape := ⟨0, ![]⟩
abbrev S8x16x1x256x256 : Shape := ⟨5, ![8, 16, 1, 256, 256]⟩
abbrev S8x1x16x256x256 : Shape := ⟨5, ![8, 1, 16, 256, 256]⟩
abbrev S8x16x16x256x256 : Shape := ⟨5, ![8, 16, 16, 256, 256]⟩
abbrev S8 : Shape := ⟨1, ![8]⟩

abbrev nBuf : Space → Nat
  | .hbm => 35
  | .vmem => 0
  | .smem => 0
  | _ => 0

abbrev bufTy : (tb : Table) → Fin (tcTables nBuf tb) → BufTy
  | .hbm, ⟨0, _⟩ => ⟨S8x16x256x256, .f32⟩
  | .hbm, ⟨1, _⟩ => ⟨S8x256x256, .f32⟩
  | .hbm, ⟨2, _⟩ => ⟨S8x1x256x256, .f32⟩
  | .hbm, ⟨3, _⟩ => ⟨S8x16x256x256, .f32⟩
  | .hbm, ⟨4, _⟩ => ⟨S8x16x256x256, .f32⟩
  | .hbm, ⟨5, _⟩ => ⟨S8x16x256x256, .f32⟩
  | .hbm, ⟨6, _⟩ => ⟨S_, .f32⟩
  | .hbm, ⟨7, _⟩ => ⟨S8x256x256, .f32⟩
  | .hbm, ⟨8, _⟩ => ⟨S_, .f32⟩
  | .hbm, ⟨9, _⟩ => ⟨S8x256x256, .f32⟩
  | .hbm, ⟨10, _⟩ => ⟨S8x256x256, .f32⟩
  | .hbm, ⟨11, _⟩ => ⟨S8x16x1x256x256, .f32⟩
  | .hbm, ⟨12, _⟩ => ⟨S8x1x16x256x256, .f32⟩
  | .hbm, ⟨13, _⟩ => ⟨S8x16x16x256x256, .f32⟩
  | .hbm, ⟨14, _⟩ => ⟨S8x16x16x256x256, .f32⟩
  | .hbm, ⟨15, _⟩ => ⟨S8x16x16x256x256, .f32⟩
  | .hbm, ⟨16, _⟩ => ⟨S8x16x16x256x256, .f32⟩
  | .hbm, ⟨17, _⟩ => ⟨S_, .f32⟩
  | .hbm, ⟨18, _⟩ => ⟨S8x256x256, .f32⟩
  | .hbm, ⟨19, _⟩ => ⟨S_, .f32⟩
  | .hbm, ⟨20, _⟩ => ⟨S8x256x256, .f32⟩
  | .hbm, ⟨21, _⟩ => ⟨S8x256x256, .f32⟩
  | .hbm, ⟨22, _⟩ => ⟨S_, .f32⟩
  | .hbm, ⟨23, _⟩ => ⟨S8x256x256, .f32⟩
  | .hbm, ⟨24, _⟩ => ⟨S8x256x256, .f32⟩
  | .hbm, ⟨25, _⟩ => ⟨S8x256x256, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S8x256x256_S8x1x256x256_0_2_3 : S8x256x256.BroadcastsInDim S8x1x256x256 (![0, 2, 3] : Fin 3 → Fin S8x1x256x256.rank)
  bcast_S8x1x256x256_S8x16x256x256_0_1_2_3 : S8x1x256x256.BroadcastsInDim S8x16x256x256 (![0, 1, 2, 3] : Fin 4 → Fin S8x16x256x256.rank)
  reducesTo_S8x16x256x256_S8x256x256_d1 : S8x16x256x256.ReducesTo [1] S8x256x256
  h_S_ : 0 < S_.numel
  bcast_S_S8x256x256 : S_.BroadcastsInDim S8x256x256 (![] : Fin 0 → Fin S8x256x256.rank)
  bcast_S8x16x256x256_S8x16x1x256x256_0_1_3_4 : S8x16x256x256.BroadcastsInDim S8x16x1x256x256 (![0, 1, 3, 4] : Fin 4 → Fin S8x16x1x256x256.rank)
  bcast_S8x16x256x256_S8x1x16x256x256_0_2_3_4 : S8x16x256x256.BroadcastsInDim S8x1x16x256x256 (![0, 2, 3, 4] : Fin 4 → Fin S8x1x16x256x256.rank)
  bcast_S8x16x1x256x256_S8x16x16x256x256_0_1_2_3_4 : S8x16x1x256x256.BroadcastsInDim S8x16x16x256x256 (![0, 1, 2, 3, 4] : Fin 5 → Fin S8x16x16x256x256.rank)
  bcast_S8x1x16x256x256_S8x16x16x256x256_0_1_2_3_4 : S8x1x16x256x256.BroadcastsInDim S8x16x16x256x256 (![0, 1, 2, 3, 4] : Fin 5 → Fin S8x16x16x256x256.rank)
  reducesTo_S8x16x16x256x256_S8x256x256_d1_2 : S8x16x16x256x256.ReducesTo [1, 2] S8x256x256
  reducesTo_S8x256x256_S8_d1_2 : S8x256x256.ReducesTo [1, 2] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.Spec.lean ====
/- The quantity both programs compute, stated once over the extended reals.

   For a batch `b` and a pixel `(h, w)` let `f e` be the sixteen ensemble members there and `o` the observation.
   The score of the pixel is  (1/16)·Σ_e |f e − o|  −  (1/2)·(1/256)·Σ_{e,e'} |f e − f e'| ,
   a sample's score is the mean of its 65536 pixels, and the result is the mean of the eight samples.
   The kernel sums the pairs `e < e'` only, one after the other in lexicographic order, and weighs that
   sum by 2/256; it multiplies by reciprocals where the reference divides. -/
import Idealize.ShloMosaic.PureOps.Ideal
import Idealize.ShloMosaic.Lib.ValueIdx

noncomputable section

namespace Cert.Crps

open Idealize.ShloMosaic Idealize.ShloMosaic.ValueIdx

/-- The absolute value as the idealized programs compute it: the larger of a number and its negation. -/
def absE (a : EReal) : EReal := max a (-a)

/-- The ensemble members in order. -/
def members : List (Fin 16) := [0, 1, 2, 3, 4, 5, 6, 7, 8, 9, 10, 11, 12, 13, 14, 15]

/-- The pairs `(e, e')` with `e'` drawn from a list. -/
def pairsWith (e : Fin 16) (l : List (Fin 16)) : List (Fin 16 × Fin 16) := l.map fun e' => (e, e')

/-- The 120 pairs `e < e'` in lexicographic order: the order in which the kernel accumulates them. -/
def pairs : List (Fin 16 × Fin 16) :=
  pairsWith 0 [1, 2, 3, 4, 5, 6, 7, 8, 9, 10, 11, 12, 13, 14, 15]
  ++ pairsWith 1 [2, 3, 4, 5, 6, 7, 8, 9, 10, 11, 12, 13, 14, 15]
  ++ pairsWith 2 [3, 4, 5, 6, 7, 8, 9, 10, 11, 12, 13, 14, 15]
  ++ pairsWith 3 [4, 5, 6, 7, 8, 9, 10, 11, 12, 13, 14, 15]
  ++ pairsWith 4 [5, 6, 7, 8, 9, 10, 11, 12, 13, 14, 15]
  ++ pairsWith 5 [6, 7, 8, 9, 10, 11, 12, 13, 14, 15]
  ++ pairsWith 6 [7, 8, 9, 10, 11, 12, 13, 14, 15]
  ++ pairsWith 7 [8, 9, 10, 11, 12, 13, 14, 15]
  ++ pairsWith 8 [9, 10, 11, 12, 13, 14, 15]
  ++ pairsWith 9 [10, 11, 12, 13, 14, 15]
  ++ pairsWith 10 [11, 12, 13, 14, 15]
  ++ pairsWith 11 [12, 13, 14, 15]
  ++ pairsWith 12 [13, 14, 15]
  ++ pairsWith 13 [14, 15]
  ++ pairsWith 14 [15]

/-- The kernel's first accumulator at a pixel: the distances to the observation, added member by member from zero. -/
def accObs (f : Fin 16 → EReal) (o : EReal) : EReal :=
  members.foldl (fun s e => s + absE (f e - o)) 0

/-- The kernel's second accumulator at a pixel: the distances of the pairs `e < e'`, added pair by pair from zero. -/
def accPairs (f : Fin 16 → EReal) : EReal :=
  pairs.foldl (fun s p => s + absE (f p.1 - f p.2)) 0

/-- The kernel's score of a pixel, with the kernel's own constants (the patterns of 1/16, 1/2 and 1/128). -/
def pixK (f : Fin 16 → EReal) (o : EReal) : EReal :=
  accObs f o * Ideal.ofBits .f32 0x3D800000#32
    - Ideal.ofBits .f32 0x3F000000#32 * (accPairs f * Ideal.ofBits .f32 0x3C000000#32)

/-- The score of a pixel. -/
def pix (f : Fin 16 → EReal) (o : EReal) : EReal :=
  (∑ e : Fin 16, absE (f e - o)) * ((1 / 16 : ℝ) : EReal)
    - ((1 / 2 : ℝ) : EReal) * ((∑ e : Fin 16, ∑ e' : Fin 16, absE (f e - f e')) * ((1 / 256 : ℝ) : EReal))

/-- The score of sample `b` before its division by the pixel count: the sum of its pixels' scores. -/
def sampleSum (fore : (⟨4, ![8, 16, 256, 256]⟩ : Shape).Idx → EReal) (obs : (⟨3, ![8, 256, 256]⟩ : Shape).Idx → EReal)
    (b : Fin 8) : EReal :=
  ∑ h : Fin 256, ∑ w : Fin 256, pix (fun e => fore (ix4 b e h w)) (obs (ix3 b h w))

/-- The result: the mean over the eight samples of the mean over a sample's 65536 pixels. -/
def G (fore : (⟨4, ![8, 16, 256, 256]⟩ : Shape).Idx → EReal) (obs : (⟨3, ![8, 256, 256]⟩ : Shape).Idx → EReal) : EReal :=
  (∑ b : Fin 8, sampleSum fore obs b * ((1 / 65536 : ℝ) : EReal)) * ((1 / 8 : ℝ) : EReal)

end Cert.Crps

end
-- ==== Proof.Consts.lean ====
/- The float constants the two programs spell, as the extended reals their bit patterns denote.
   Every one is a power of two, so each pattern is exactly the rational named here. -/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `8.0`, the batch count both programs divide the final sum by. -/
theorem ofBits_8 : Ideal.ofBits .f32 0x41000000#32 = ((8 : ℝ) : EReal) := by
  simp [Ideal.ofBits, Ideal.ieee, -EReal.coe_mul]; norm_num

/-- `16.0`, the ensemble size the reference divides the first term by. -/
theorem ofBits_16 : Ideal.ofBits .f32 0x41800000#32 = ((16 : ℝ) : EReal) := by
  simp [Ideal.ofBits, Ideal.ieee, -EReal.coe_mul]; norm_num

/-- `256.0`, the number of ordered ensemble pairs. -/
theorem ofBits_256 : Ideal.ofBits .f32 0x43800000#32 = ((256 : ℝ) : EReal) := by
  simp [Ideal.ofBits, Ideal.ieee, -EReal.coe_mul]; norm_num

/-- `65536.0`, the number of pixels of one sample. -/
theorem ofBits_65536 : Ideal.ofBits .f32 0x47800000#32 = ((65536 : ℝ) : EReal) := by
  simp [Ideal.ofBits, Ideal.ieee, -EReal.coe_mul]; norm_num

/-- `0.5`. -/
theorem ofBits_half : Ideal.ofBits .f32 0x3F000000#32 = ((1 / 2 : ℝ) : EReal) := by
  simp [Ideal.ofBits, Ideal.ieee, -EReal.coe_mul]; norm_num

/-- `0.0625 = 1/16`, the kernel's reciprocal of the ensemble size. -/
theorem ofBits_inv16 : Ideal.ofBits .f32 0x3D800000#32 = ((1 / 16 : ℝ) : EReal) := by
  simp [Ideal.ofBits, Ideal.ieee, -EReal.coe_mul]; norm_num

/-- `0.0078125 = 1/128 = 2/256`, the kernel's weight of the upper-triangular pair sum. -/
theorem ofBits_inv128 : Ideal.ofBits .f32 0x3C000000#32 = ((1 / 128 : ℝ) : EReal) := by
  simp [Ideal.ofBits, Ideal.ieee, -EReal.coe_mul]; norm_num

/-- `2^-16 = 1/65536`, the kernel's reciprocal of the pixel count. -/
theorem ofBits_inv65536 : Ideal.ofBits .f32 0x37800000#32 = ((1 / 65536 : ℝ) : EReal) := by
  simp [Ideal.ofBits, Ideal.ieee, -EReal.coe_mul]; norm_num

end Cert.Consts

end
-- ==== Proof.KernelTrip.lean ====
/- One trip of the kernel's loop over the eight 32-row strips of a sample.

   A trip reads the observation's strip and the sixteen members' strips (rows 32k … 32k+31), accumulates at every
   pixel of the strip the distances |f_e − o| member by member and the distances |f_e − f_e'| pair by pair
   (e < e', lexicographic order), forms  acc_obs·(1/16) − (1/2)·(acc_pairs·(1/128)),  sums that over the 256
   lanes and then over the 32 rows, and adds the total to the carried scalar. -/
import proofs.«423601_j32469952758267_3_alg».proof.Proof.Gen.KernelIdeal.Frame
import proofs.«423601_j32469952758267_3_alg».proof.Proof.Spec
import proofs.«423601_j32469952758267_3_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelTrip

open Idealize.ShloMosaic Idealize.ShloMosaic.TcCoe Idealize.ShloMosaic.Tactic Idealize.ShloMosaic.ValueIdx
open Idealize.SL Idealize.SL.Sem
open Cert.KernelIdeal Cert.KernelIdeal.Gen

/-! ## A trip as two accumulations over the strips, at any instance -/

section Generic

variable {F : FTy → Type} [FloatOps F]

/-- Member `e`'s strip of trip `k`: the 32 × 256 rows the trip loads of it. -/
def strip (arg1 : Memref sig .tc .vmem S1x16x256x256 .f32) (X1 : BufTy.Contents (Elt F) arg1.view.ty) (k : Fin k0_t1_loop.trips) : Fin 16 → FVec F S32x256 .f32
  | ⟨0, _⟩ => shapeCast S32x256 (View.readAt (Elt F) arg1.view (Rect.unit (s := S1x16x256x256) (k0_off2 k) S1x1x32x256.size (k0_off2_inb k)).toLoadRect X1) shapeCasts_S1x1x32x256_S32x256
  | ⟨1, _⟩ => shapeCast S32x256 (View.readAt (Elt F) arg1.view (Rect.unit (s := S1x16x256x256) (k0_off3 k) S1x1x32x256.size (k0_off3_inb k)).toLoadRect X1) shapeCasts_S1x1x32x256_S32x256
  | ⟨2, _⟩ => shapeCast S32x256 (View.readAt (Elt F) arg1.view (Rect.unit (s := S1x16x256x256) (k0_off4 k) S1x1x32x256.size (k0_off4_inb k)).toLoadRect X1) shapeCasts_S1x1x32x256_S32x256
  | ⟨3, _⟩ => shapeCast S32x256 (View.readAt (Elt F) arg1.view (Rect.unit (s := S1x16x256x256) (k0_off5 k) S1x1x32x256.size (k0_off5_inb k)).toLoadRect X1) shapeCasts_S1x1x32x256_S32x256
  | ⟨4, _⟩ => shapeCast S32x256 (View.readAt (Elt F) arg1.view (Rect.unit (s := S1x16x256x256) (k0_off6 k) S1x1x32x256.size (k0_off6_inb k)).toLoadRect X1) shapeCasts_S1x1x32x256_S32x256
  | ⟨5, _⟩ => shapeCast S32x256 (View.readAt (Elt F) arg1.view (Rect.unit (s := S1x16x256x256) (k0_off7 k) S1x1x32x256.size (k0_off7_inb k)).toLoadRect X1) shapeCasts_S1x1x32x256_S32x256
  | ⟨6, _⟩ => shapeCast S32x256 (View.readAt (Elt F) arg1.view (Rect.unit (s := S1x16x256x256) (k0_off8 k) S1x1x32x256.size (k0_off8_inb k)).toLoadRect X1) shapeCasts_S1x1x32x256_S32x256
  | ⟨7, _⟩ => shapeCast S32x256 (View.readAt (Elt F) arg1.view (Rect.unit (s := S1x16x256x256) (k0_off9 k) S1x1x32x256.size (k0_off9_inb k)).toLoadRect X1) shapeCasts_S1x1x32x256_S32x256
  | ⟨8, _⟩ => shapeCast S32x256 (View.readAt (Elt F) arg1.view (Rect.unit (s := S1x16x256x256) (k0_off10 k) S1x1x32x256.size (k0_off10_inb k)).toLoadRect X1) shapeCasts_S1x1x32x256_S32x256
  | ⟨9, _⟩ => shapeCast S32x256 (View.readAt (Elt F) arg1.view (Rect.unit (s := S1x16x256x256) (k0_off11 k) S1x1x32x256.size (k0_off11_inb k)).toLoadRect X1) shapeCasts_S1x1x32x256_S32x256
  | ⟨10, _⟩ => shapeCast S32x256 (View.readAt (Elt F) arg1.view (Rect.unit (s := S1x16x256x256) (k0_off12 k) S1x1x32x256.size (k0_off12_inb k)).toLoadRect X1) shapeCasts_S1x1x32x256_S32x256
  | ⟨11, _⟩ => shapeCast S32x256 (View.readAt (Elt F) arg1.view (Rect.unit (s := S1x16x256x256) (k0_off13 k) S1x1x32x256.size (k0_off13_inb k)).toLoadRect X1) shapeCasts_S1x1x32x256_S32x256
  | ⟨12, _⟩ => shapeCast S32x256 (View.readAt (Elt F) arg1.view (Rect.unit (s := S1x16x256x256) (k0_off14 k) S1x1x32x256.size (k0_off14_inb k)).toLoadRect X1) shapeCasts_S1x1x32x256_S32x256
  | ⟨13, _⟩ => shapeCast S32x256 (View.readAt (Elt F) arg1.view (Rect.unit (s := S1x16x256x256) (k0_off15 k) S1x1x32x256.size (k0_off15_inb k)).toLoadRect X1) shapeCasts_S1x1x32x256_S32x256
  | ⟨14, _⟩ => shapeCast S32x256 (View.readAt (Elt F) arg1.view (Rect.unit (s := S1x16x256x256) (k0_off16 k) S1x1x32x256.size (k0_off16_inb k)).toLoadRect X1) shapeCasts_S1x1x32x256_S32x256
  | ⟨15, _⟩ => shapeCast S32x256 (View.readAt (Elt F) arg1.view (Rect.unit (s := S1x16x256x256) (k0_off17 k) S1x1x32x256.size (k0_off17_inb k)).toLoadRect X1) shapeCasts_S1x1x32x256_S32x256
  | ⟨n + 16, h⟩ => absurd h (by omega)

/-- The observation's strip of trip `k`. -/
def obsStrip (arg2 : Memref sig .tc .vmem S1x256x256 .f32) (X2 : BufTy.Contents (Elt F) arg2.view.ty) (k : Fin k0_t1_loop.trips) : FVec F S32x256 .f32 :=
  shapeCast S32x256 (View.readAt (Elt F) arg2.view (Rect.unit (s := S1x256x256) (k0_off1 k) S1x32x256.size (k0_off1_inb k)).toLoadRect X2) shapeCasts_S1x32x256_S32x256

/-- The pair distances accumulated over a strip, pair by pair from zero. -/
def accPairsV (A : Fin 16 → FVec F S32x256 .f32) : FVec F S32x256 .f32 :=
  Cert.Crps.pairs.foldl (fun s p => addf s (absf (subf (A p.1) (A p.2)))) (broadcast S32x256 (Scalar.ofBits .f32 0x00000000#32))

/-- The distances to the observation accumulated over a strip, member by member from zero. -/
def accObsV (A : Fin 16 → FVec F S32x256 .f32) (o : FVec F S32x256 .f32) : FVec F S32x256 .f32 :=
  Cert.Crps.members.foldl (fun s e => addf s (absf (subf (A e) o))) (broadcast S32x256 (Scalar.ofBits .f32 0x00000000#32))

/-- What a trip yields: the body's last payload of the carried value and the two accumulations. The trip's loads
    and vector operations are exactly these two left folds, in this order. -/
theorem tripR_eq (𝒱 : Variants) (c : Dev nD) (bd : Option 𝒱.V) (i : grid0.Coords) (arg1 : Memref sig .tc .vmem S1x16x256x256 .f32) (harg1 : arg1.IsWhole) (arg2 : Memref sig .tc .vmem S1x256x256 .f32) (harg2 : arg2.IsWhole) (arg3 : Memref sig .tc .vmem S1x8x128 .f32) (harg3 : arg3.IsWhole) (X1 : BufTy.Contents (Elt F) arg1.view.ty) (X2 : BufTy.Contents (Elt F) arg2.view.ty) (k : Fin k0_t1_loop.trips) (acc : FVec F S1x1 .f32) :
    tripR_k0_t1 (F := F) 𝒱 c bd i arg1 harg1 arg2 harg2 arg3 harg3 X1 X2 k acc
      = k0_pay2 acc (accPairsV (strip arg1 X1 k))
          (mulf (accObsV (strip arg1 X1 k) (obsStrip arg2 X2 k)) (broadcast S32x256 (Scalar.ofBits .f32 0x3D800000#32))) := by
  unfold tripR_k0_t1 trip_k0_t1
  dsimp only
  congr 1

end Generic

/-! ## The accumulations at a pixel, over the extended reals -/

section AtIdeal

/-- A left fold of vector additions, read at an index, is the left fold of the additions there. -/
theorem foldl_addf_apply {ι : Type} (g : ι → FVec Ideal S32x256 .f32) (l : List ι) (init : FVec Ideal S32x256 .f32) (j : S32x256.Idx) :
    (l.foldl (fun s p => addf s (g p)) init) j = l.foldl (fun s p => s + g p j) (init j) := by
  induction l generalizing init with
  | nil => rfl
  | cons a l ih => rw [List.foldl_cons, List.foldl_cons, ih]; rfl

theorem accPairsV_apply (A : Fin 16 → FVec Ideal S32x256 .f32) (j : S32x256.Idx) :
    accPairsV (F := Ideal) A j = Cert.Crps.accPairs (fun e => A e j) := by
  unfold accPairsV Cert.Crps.accPairs
  rw [foldl_addf_apply]
  show List.foldl _ (Ideal.ofBits .f32 0x00000000#32) _ = _
  rw [Cert.Consts.ofBits_zero]
  rfl

theorem accObsV_apply (A : Fin 16 → FVec Ideal S32x256 .f32) (o : FVec Ideal S32x256 .f32) (j : S32x256.Idx) :
    accObsV (F := Ideal) A o j = Cert.Crps.accObs (fun e => A e j) (o j) := by
  unfold accObsV Cert.Crps.accObs
  rw [foldl_addf_apply]
  show List.foldl _ (Ideal.ofBits .f32 0x00000000#32) _ = _
  rw [Cert.Consts.ofBits_zero]
  rfl

end AtIdeal

end Cert.KernelTrip

end
-- ==== Proof.TripValue.lean ====
/- A trip's total over the extended reals: the carried scalar plus the sum, over the strip's 32 rows and 256 lanes,
   of the kernel's pixel score at row 32k + r. -/
import proofs.«423601_j32469952758267_3_alg».proof.Proof.KernelTrip

set_option maxRecDepth 16384

noncomputable section

namespace Cert.TripValue

open Idealize.ShloMosaic Idealize.ShloMosaic.TcCoe Idealize.ShloMosaic.ValueIdx
open Idealize.SL Idealize.SL.Sem
open Cert.KernelIdeal Cert.KernelIdeal.Gen Cert.KernelTrip

/-! ## The strips at a pixel -/

/-- A member's strip at (r, l) is the block's entry at member e, row 32k + r, lane l: the load's rectangle starts
    at (0, e, 32k, 0) with unit strides, and dropping the two unit axes keeps the row-major position. -/
theorem ld_strip_apply (x0 : Vec Ideal S1x16x256x256 .f32) (off : Fin 4 → ℕ)
    (inb : ∀ a, off a + S1x1x32x256.size a ≤ S1x16x256x256.size a) (e : Fin 16) (kk : ℕ)
    (hoff : off = ![0, e.val, 32 * kk, 0]) (r : Fin 32) (l : Fin 256) (hr : 32 * kk + r.val < 256) :
    shapeCast S32x256 (View.ld x0 (Rect.unit (s := S1x16x256x256) off S1x1x32x256.size inb)) shapeCasts_S1x1x32x256_S32x256 (ix2 r l)
      = x0 (ix4 (0 : Fin 1) e ⟨32 * kk + r.val, hr⟩ l) := by
  subst hoff
  rw [shapeCast_apply _ _ (ix2 r l) (ix4 (0 : Fin 1) (0 : Fin 1) r l) (by
    rw [Shape.rowMajor_val_four, Shape.rowMajor_val_two]
    show ((0 * 1 + 0) * 32 + r.val) * 256 + l.val = r.val * 256 + l.val
    omega)]
  refine congrArg x0 (funext fun a => Fin.ext ?_)
  match a with
  | ⟨0, _⟩ => show 0 + 1 * 0 = 0; omega
  | ⟨1, _⟩ => show e.val + 1 * 0 = e.val; omega
  | ⟨2, _⟩ => show 32 * kk + 1 * r.val = 32 * kk + r.val; omega
  | ⟨3, _⟩ => show 0 + 1 * l.val = l.val; omega

/-- The observation's strip at (r, l) is the block's entry at row 32k + r, lane l. -/
theorem ld_obs_apply (x1 : Vec Ideal S1x256x256 .f32) (off : Fin 3 → ℕ)
    (inb : ∀ a, off a + S1x32x256.size a ≤ S1x256x256.size a) (kk : ℕ)
    (hoff : off = ![0, 32 * kk, 0]) (r : Fin 32) (l : Fin 256) (hr : 32 * kk + r.val < 256) :
    shapeCast S32x256 (View.ld x1 (Rect.unit (s := S1x256x256) off S1x32x256.size inb)) shapeCasts_S1x32x256_S32x256 (ix2 r l)
      = x1 (ix3 (0 : Fin 1) ⟨32 * kk + r.val, hr⟩ l) := by
  subst hoff
  rw [shapeCast_apply _ _ (ix2 r l) (ix3 (0 : Fin 1) r l) (by
    rw [Shape.rowMajor_val_three, Shape.rowMajor_val_two]
    show (0 * 32 + r.val) * 256 + l.val = r.val * 256 + l.val
    omega)]
  refine congrArg x1 (funext fun a => Fin.ext ?_)
  match a with
  | ⟨0, _⟩ => show 0 + 1 * 0 = 0; omega
  | ⟨1, _⟩ => show 32 * kk + 1 * r.val = 32 * kk + r.val; omega
  | ⟨2, _⟩ => show 0 + 1 * l.val = l.val; omega

theorem strip_apply (arg1 : Memref sig .tc .vmem S1x16x256x256 .f32) (harg1 : arg1.IsWhole) (x0 : Vec Ideal S1x16x256x256 .f32)
    (k : Fin k0_t1_loop.trips) (e : Fin 16) (r : Fin 32) (l : Fin 256) (hr : 32 * k.val + r.val < 256) :
    strip (F := Ideal) arg1 (harg1.unread x0) k e (ix2 r l) = x0 (ix4 (0 : Fin 1) e ⟨32 * k.val + r.val, hr⟩ l) := by
  fin_cases e <;>
  · simp only [strip]
    rw [View.readAt_eq_ld, harg1.read_unread]
    exact ld_strip_apply x0 _ _ _ k.val (by first | exact k0_off2_eq k | exact k0_off3_eq k | exact k0_off4_eq k | exact k0_off5_eq k | exact k0_off6_eq k | exact k0_off7_eq k | exact k0_off8_eq k | exact k0_off9_eq k | exact k0_off10_eq k | exact k0_off11_eq k | exact k0_off12_eq k | exact k0_off13_eq k | exact k0_off14_eq k | exact k0_off15_eq k | exact k0_off16_eq k | exact k0_off17_eq k) r l hr

theorem obsStrip_apply (arg2 : Memref sig .tc .vmem S1x256x256 .f32) (harg2 : arg2.IsWhole) (x1 : Vec Ideal S1x256x256 .f32)
    (k : Fin k0_t1_loop.trips) (r : Fin 32) (l : Fin 256) (hr : 32 * k.val + r.val < 256) :
    obsStrip (F := Ideal) arg2 (harg2.unread x1) k (ix2 r l) = x1 (ix3 (0 : Fin 1) ⟨32 * k.val + r.val, hr⟩ l) := by
  unfold obsStrip
  rw [View.readAt_eq_ld, harg2.read_unread]
  exact ld_obs_apply x1 _ _ k.val (k0_off1_eq k) r l hr

/-! ## The two reductions -/

/-- The lane reduction followed by the row reduction of a 32 × 256 vector (each through its keep-dimension cast)
    is, at the one index of the result, the double sum over rows and lanes. -/
theorem sumAll_apply (V : FVec Ideal S32x256 .f32) (j : S1x1.Idx) :
    shapeCast S1x1 (multiReduction .add [0] S1
        (shapeCast S32x1 (multiReduction .add [1] S32 V 0x00000000#32 reduces_S32x256_S32 (.inl rfl) rfl) shapeCasts_S32_S32x1)
        0x00000000#32 reduces_S32x1_S1 (.inl rfl) rfl) shapeCasts_S1_S1x1 j
      = ∑ r : Fin 32, ∑ l : Fin 256, V (ix2 r l) := by
  refine (shapeCast_apply _ shapeCasts_S1_S1x1 j (ix1 (0 : Fin 1)) (by
    rw [Shape.rowMajor_val_one, Shape.rowMajor_val_two]
    have h0 : (j 0).val < 1 := (j 0).isLt
    have h1 : (j 1).val < 1 := (j 1).isLt
    show 0 = (j 0).val * 1 + (j 1).val
    omega)).trans ?_
  refine (Ideal.multiReduction_add_single (a := (0 : Fin S32x1.rank)) _ 0x00000000#32 reduces_S32x1_S1 (.inl rfl) rfl (ix1 (0 : Fin 1))).trans ?_
  show ∑ r : Fin 32, _ = _
  refine Finset.sum_congr rfl fun r _ => ?_
  refine (shapeCast_apply _ shapeCasts_S32_S32x1 _ (ix1 r) (by
    rw [Shape.rowMajor_val_one, Shape.rowMajor_val_two]
    have e0 : Shape.Reduces.liftVal reduces_S32x1_S1 (ix1 (0 : Fin 1)) r.val (0 : Fin 2) = r.val := by
      simp [Shape.Reduces.liftVal]
    have e1 : Shape.Reduces.liftVal reduces_S32x1_S1 (ix1 (0 : Fin 1)) r.val (1 : Fin 2) = 0 := by
      simp [Shape.Reduces.liftVal]
    show r.val = Shape.Reduces.liftVal reduces_S32x1_S1 (ix1 (0 : Fin 1)) r.val (0 : Fin 2) * 1
      + Shape.Reduces.liftVal reduces_S32x1_S1 (ix1 (0 : Fin 1)) r.val (1 : Fin 2)
    rw [e0, e1, Nat.mul_one, Nat.add_zero])).trans ?_
  refine (Ideal.multiReduction_add_single (a := (1 : Fin S32x256.rank)) V 0x00000000#32 reduces_S32x256_S32 (.inl rfl) rfl (ix1 r)).trans ?_
  show ∑ l : Fin 256, _ = _
  refine Finset.sum_congr rfl fun l _ => ?_
  refine congrArg V (funext fun a => Fin.ext ?_)
  match a with
  | ⟨0, _⟩ =>
    show Shape.Reduces.liftVal reduces_S32x256_S32 (ix1 r) l.val (0 : Fin 2) = r.val
    simp [Shape.Reduces.liftVal]
  | ⟨1, _⟩ =>
    show Shape.Reduces.liftVal reduces_S32x256_S32 (ix1 r) l.val (1 : Fin 2) = l.val
    simp [Shape.Reduces.liftVal]

/-- The trip's last payload at its one index: the carried value plus the double sum of
    acc_obs·(1/16) − (1/2)·(acc_pairs·(1/128)) over the strip. -/
theorem pay2_apply (acc : FVec Ideal S1x1 .f32) (P2 P1 : FVec Ideal S32x256 .f32) (j : S1x1.Idx) :
    k0_pay2 (F := Ideal) acc P2 P1 j
      = acc j + ∑ r : Fin 32, ∑ l : Fin 256,
          (P1 (ix2 r l) - Ideal.ofBits .f32 0x3F000000#32 * (P2 (ix2 r l) * Ideal.ofBits .f32 0x3C000000#32)) := by
  unfold k0_pay2
  dsimp only
  show acc j + _ = _
  refine congrArg (acc j + ·) ((sumAll_apply _ j).trans ?_)
  rfl

/-! ## The trip's total -/

/-- The kernel's score of the pixel at row `hh`, lane `l` of a sample's block (zero past the last row, so that
    rows can be counted by natural numbers). -/
def rowPix (x0 : Vec Ideal S1x16x256x256 .f32) (x1 : Vec Ideal S1x256x256 .f32) (hh : ℕ) (l : Fin 256) : EReal :=
  if hlt : hh < 256 then Cert.Crps.pixK (fun e => x0 (ix4 (0 : Fin 1) e ⟨hh, hlt⟩ l)) (x1 (ix3 (0 : Fin 1) ⟨hh, hlt⟩ l)) else 0

/-- Trip `k` adds to the carried scalar the scores of rows 32k … 32k + 31. -/
theorem trip_total (𝒱 : Variants) (c : Dev nD) (bd : Option 𝒱.V) (i : grid0.Coords)
    (arg1 : Memref sig .tc .vmem S1x16x256x256 .f32) (harg1 : arg1.IsWhole) (arg2 : Memref sig .tc .vmem S1x256x256 .f32) (harg2 : arg2.IsWhole)
    (arg3 : Memref sig .tc .vmem S1x8x128 .f32) (harg3 : arg3.IsWhole)
    (x0 : Vec Ideal S1x16x256x256 .f32) (x1 : Vec Ideal S1x256x256 .f32) (k : Fin k0_t1_loop.trips) (acc : FVec Ideal S1x1 .f32) (j : S1x1.Idx) :
    tripR_k0_t1 (F := Ideal) 𝒱 c bd i arg1 harg1 arg2 harg2 arg3 harg3 (harg1.unread x0) (harg2.unread x1) k acc j
      = acc j + ∑ r ∈ Finset.range 32, ∑ l : Fin 256, rowPix x0 x1 (32 * k.val + r) l := by
  have hk : k.val < 8 := Nat.lt_of_lt_of_le k.isLt k0_t1_abs.2.1
  rw [tripR_eq, pay2_apply]
  congr 1
  rw [← Fin.sum_univ_eq_sum_range (fun r => ∑ l : Fin 256, rowPix x0 x1 (32 * k.val + r) l) 32]
  refine Finset.sum_congr rfl fun r _ => Finset.sum_congr rfl fun l _ => ?_
  have hr : 32 * k.val + r.val < 256 := by have := r.isLt; omega
  rw [rowPix, dif_pos hr]
  unfold Cert.Crps.pixK
  rw [ValueIdx.mulf_apply, accObsV_apply, accPairsV_apply, obsStrip_apply arg2 harg2 x1 k r l hr]
  simp only [strip_apply arg1 harg1 x0 k _ r l hr]
  rfl

end Cert.TripValue

end
-- ==== Proof.KernelBlock.lean ====
/- A sample's block of the region's output, and the output array after the region.

   At grid point b the body runs the eight trips from zero, multiplies the carried scalar by 1/65536 and stores it at
   every one of the block's 8 × 128 places. The trips together visit rows 0 … 255, so the block holds the sum of the
   kernel's pixel scores of sample b, times 1/65536. The eight blocks tile the output array. -/
import proofs.«423601_j32469952758267_3_alg».proof.Proof.TripValue

set_option maxRecDepth 16384

noncomputable section

namespace Cert.KernelBlock

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelTrip Cert.TripValue

/-! ## The block as one term, at any instance -/

section Generic

variable {F : FTy → Type} [FloatOps F]

theorem zero3 : (![0, 0, 0] : Fin 3 → ℕ) = fun _ => 0 := funext fun a => by fin_cases a <;> rfl

/-- The body's one store covers the block, so the block is its payload: the last payload of the scalar the loop
    carries out after all its trips. -/
theorem out_eq (c : Dev nD) (i : grid0.Coords) (arg1 : Memref sig .tc .vmem S1x16x256x256 .f32) (harg1 : arg1.IsWhole) (arg2 : Memref sig .tc .vmem S1x256x256 .f32) (harg2 : arg2.IsWhole) (arg3 : Memref sig .tc .vmem S1x8x128 .f32) (harg3 : arg3.IsWhole)
    (x0 : Vec F S1x16x256x256 .f32) (x1 : Vec F S1x256x256 .f32) :
    out0_A_2 (F := F) c i arg1 harg1 arg2 harg2 arg3 harg3 x0 x1
      = k0_pay3 (st_k0_t1 (F := F) Variants.none c none i arg1 harg1 arg2 harg2 arg3 harg3 (harg1.unread x0) (harg2.unread x1) k0_pay1 k0_t1_loop.trips) := by
  unfold out0_A_2
  rw [View.read_writes_eq_canon _ _ _ (cover0_A_2 c i arg1 harg1 arg2 harg2 arg3 harg3 x0 x1)]
  unfold kernelRun0_A
  dsimp only
  rw [View.canon_unit_zero (S := S1x8x128) zero3]

end Generic

/-! ## The block over the extended reals -/

section AtIdeal

theorem trips_eq : k0_t1_loop.trips = 8 := by decide

/-- Before trip n the carried scalar is the sum of the scores of rows 0 … 32n − 1. -/
theorem st_eq (𝒱 : Variants) (c : Dev nD) (bd : Option 𝒱.V) (i : grid0.Coords) (arg1 : Memref sig .tc .vmem S1x16x256x256 .f32) (harg1 : arg1.IsWhole) (arg2 : Memref sig .tc .vmem S1x256x256 .f32) (harg2 : arg2.IsWhole) (arg3 : Memref sig .tc .vmem S1x8x128 .f32) (harg3 : arg3.IsWhole)
    (x0 : Vec Ideal S1x16x256x256 .f32) (x1 : Vec Ideal S1x256x256 .f32) (n : ℕ) (hn : n ≤ k0_t1_loop.trips) (j : S1x1.Idx) :
    st_k0_t1 (F := Ideal) 𝒱 c bd i arg1 harg1 arg2 harg2 arg3 harg3 (harg1.unread x0) (harg2.unread x1) k0_pay1 n j
      = ∑ hh ∈ Finset.range (32 * n), ∑ l : Fin 256, rowPix x0 x1 hh l := by
  induction n with
  | zero =>
    rw [Nat.mul_zero, Finset.range_zero, Finset.sum_empty]
    exact Cert.Consts.ofBits_zero
  | succ n ih =>
    have hlt : n < k0_t1_loop.trips := hn
    have e : st_k0_t1 (F := Ideal) 𝒱 c bd i arg1 harg1 arg2 harg2 arg3 harg3 (harg1.unread x0) (harg2.unread x1) k0_pay1 (n + 1)
        = tripR_k0_t1 (F := Ideal) 𝒱 c bd i arg1 harg1 arg2 harg2 arg3 harg3 (harg1.unread x0) (harg2.unread x1) ⟨n, hlt⟩
            (st_k0_t1 (F := Ideal) 𝒱 c bd i arg1 harg1 arg2 harg2 arg3 harg3 (harg1.unread x0) (harg2.unread x1) k0_pay1 n) :=
      st_k0_t1_succ (F := Ideal) 𝒱 c bd i arg1 harg1 arg2 harg2 arg3 harg3 (harg1.unread x0) (harg2.unread x1) k0_pay1 ⟨n, hlt⟩
    rw [e, trip_total, ih (Nat.le_of_lt hlt), Nat.mul_succ, Finset.sum_range_add]

/-- The last payload at any place of the block: the carried scalar times 1/65536 (a broadcast of a 1 × 1 vector). -/
theorem pay3_apply (v2 : FVec Ideal S1x1 .f32) (y : S1x8x128.Idx) :
    k0_pay3 (F := Ideal) v2 y = v2 (ix2 (0 : Fin 1) (0 : Fin 1)) * Ideal.ofBits .f32 0x37800000#32 := by
  unfold k0_pay3
  refine (shapeCast_apply _ shapeCasts_S8x128_S1x8x128 y
    (ix2 (⟨(y 1).val, (y 1).isLt⟩ : Fin 8) (⟨(y 2).val, (y 2).isLt⟩ : Fin 128)) (by
    rw [Shape.rowMajor_val_two, Shape.rowMajor_val_three]
    have h0 : (y 0).val < 1 := (y 0).isLt
    show (y 1).val * 128 + (y 2).val = ((y 0).val * 8 + (y 1).val) * 128 + (y 2).val
    omega)).trans ?_
  refine (broadcastTo_apply _ broadcasts_S1x1_S8x128 _ (ix2 (0 : Fin 1) (0 : Fin 1)) (fun a => by
    match a with
    | ⟨0, _⟩ => rfl
    | ⟨1, _⟩ => rfl)).trans ?_
  rw [shapeCast_self]
  rfl

/-- The block at any of its places: the sum of the kernel's scores of the sample's 256 × 256 pixels, times 1/65536. -/
theorem out_apply (c : Dev nD) (i : grid0.Coords) (arg1 : Memref sig .tc .vmem S1x16x256x256 .f32) (harg1 : arg1.IsWhole) (arg2 : Memref sig .tc .vmem S1x256x256 .f32) (harg2 : arg2.IsWhole) (arg3 : Memref sig .tc .vmem S1x8x128 .f32) (harg3 : arg3.IsWhole)
    (x0 : Vec Ideal S1x16x256x256 .f32) (x1 : Vec Ideal S1x256x256 .f32) (y : S1x8x128.Idx) :
    out0_A_2 (F := Ideal) c i arg1 harg1 arg2 harg2 arg3 harg3 x0 x1 y
      = (∑ h : Fin 256, ∑ w : Fin 256, Cert.Crps.pixK (fun e => x0 (ix4 (0 : Fin 1) e h w)) (x1 (ix3 (0 : Fin 1) h w)))
          * Ideal.ofBits .f32 0x37800000#32 := by
  rw [out_eq, pay3_apply, st_eq Variants.none c none i arg1 harg1 arg2 harg2 arg3 harg3 x0 x1 k0_t1_loop.trips le_rfl, trips_eq]
  refine congrArg (fun s : EReal => s * Ideal.ofBits .f32 0x37800000#32) ?_
  rw [← Fin.sum_univ_eq_sum_range (fun hh => ∑ l : Fin 256, rowPix x0 x1 hh l) (32 * 8)]
  show ∑ h : Fin 256, _ = _
  refine Finset.sum_congr rfl fun h _ => Finset.sum_congr rfl fun w _ => ?_
  rw [rowPix, dif_pos h.isLt]

end AtIdeal

end Cert.KernelBlock

end
-- ==== Proof.KernelArray.lean ====
/- The region's output array, as one function of the two argument arrays.

   Grid point b stages sample b of both arguments whole (block index (b, 0, …)), and writes back block (b, 0, 0) of the
   [8, 8, 128] output. So every entry (b, ·, ·) of the output holds the sum of the kernel's pixel scores of sample b,
   times 1/65536, and the eight blocks cover the array. -/
import proofs.«423601_j32469952758267_3_alg».proof.Proof.KernelBlock

set_option maxRecDepth 16384

noncomputable section

namespace Cert.KernelArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelBlock

variable (m : (ℓ : Loc nD τ sig) → Buf (Elt Ideal) ℓ)

/-- The sum of the kernel's pixel scores of sample `b`, times the kernel's 1/65536. -/
def sampleK (a0 : S8x16x256x256.Idx → EReal) (a1 : S8x256x256.Idx → EReal) (b : Fin 8) : EReal :=
  (∑ h : Fin 256, ∑ w : Fin 256, Cert.Crps.pixK (fun e => a0 (ix4 b e h w)) (a1 (ix3 b h w)))
    * Ideal.ofBits .f32 0x37800000#32

/-- What the output array ends holding: at (b, ·, ·), sample b's value. -/
def outArr (a0 : S8x16x256x256.Idx → EReal) (a1 : S8x256x256.Idx → EReal) : S8x8x128.Idx → EReal :=
  fun i => sampleK a0 a1 ⟨(i 0).val, (i 0).isLt⟩

/-- The printed index maps, decided over the grid: the three windows move together along the batch axis and sit at
    block 0 on every other axis. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0
    ∧ win0_1.index t (0 : Fin 3) = win0_2.index t (0 : Fin 3) ∧ win0_1.index t (1 : Fin 3) = 0
    ∧ win0_1.index t (2 : Fin 3) = 0
    ∧ win0_2.index t (1 : Fin 3) = 0 ∧ win0_2.index t (2 : Fin 3) = 0 ∧ win0_2.index t (0 : Fin 3) ≤ 7 :=
  (by decide +kernel : ∀ t : Fin grid0.N, _)

/-- Every batch index is some point's block. -/
theorem idx_onto : ∀ q : Fin 8, ∃ t : Fin cfg0.N, win0_2.index t = ![q.val, 0, 0] :=
  (by decide +kernel : ∀ q : Fin 8, ∃ t : Fin grid0.N, win0_2.index t = ![q.val, 0, 0])

/-- What point `t` writes back is block `t` of `outArr` of the argument arrays as the region finds them. -/
theorem flushed_eq (c : Dev nD) (t : Fin cfg0.N) :
    (dats m 0 c).flushed 2 t = ((cfg0.win 2).blk t).view.read (Elt Ideal) (outArr (V m c main_arg0) (V m c main_arg1)) := by
  show (cfg0.win 2).cut (grid0.coords t) ((dats m 0 c).after 2 t) = _
  rw [after0_2]
  obtain ⟨e0, e1, e2, e3, e4, e5, e6, e7, e8, e9⟩ := idx_facts t
  funext y
  show outsAt0 m c t y = outArr (V m c main_arg0) (V m c main_arg1) (((cfg0.win 2).blk t).view.emb y)
  unfold outsAt0
  refine (out_apply c (grid0.coords t) (ms0_0 t) (hs0_0 t) (ms0_1 t) (hs0_1 t) (ms0_2 t) (hs0_2 t) (iblk m c 0 t) (iblk m c 1 t) y).trans ?_
  unfold outArr sampleK
  refine congrArg (fun s : EReal => s * Ideal.ofBits .f32 0x37800000#32) ?_
  refine Finset.sum_congr rfl fun h _ => Finset.sum_congr rfl fun w _ => ?_
  have hy : (y 0).val < 1 := (y 0).isLt
  have hA : (fun e : Fin 16 => iblk m c 0 t (ix4 (0 : Fin 1) e h w))
      = fun e : Fin 16 => V m c main_arg0 (ix4 (⟨((((cfg0.win 2).blk t).view.emb y) 0).val, ((((cfg0.win 2).blk t).view.emb y) 0).isLt⟩ : Fin 8) e h w) := by
    funext e
    show V m c main_arg0 (((cfg0.win 0).blk t).view.emb (ix4 (0 : Fin 1) e h w)) = _
    refine congrArg (V m c main_arg0) (funext fun a => Fin.ext ?_)
    match a with
    | ⟨0, _⟩ => show win0_0.index t (0 : Fin 4) * 1 + 1 * 0 = win0_2.index t (0 : Fin 3) * 1 + 1 * (y 0).val; omega
    | ⟨1, _⟩ => show win0_0.index t (1 : Fin 4) * 16 + 1 * e.val = e.val; omega
    | ⟨2, _⟩ => show win0_0.index t (2 : Fin 4) * 256 + 1 * h.val = h.val; omega
    | ⟨3, _⟩ => show win0_0.index t (3 : Fin 4) * 256 + 1 * w.val = w.val; omega
  have hB : iblk m c 1 t (ix3 (0 : Fin 1) h w)
      = V m c main_arg1 (ix3 (⟨((((cfg0.win 2).blk t).view.emb y) 0).val, ((((cfg0.win 2).blk t).view.emb y) 0).isLt⟩ : Fin 8) h w) := by
    show V m c main_arg1 (((cfg0.win 1).blk t).view.emb (ix3 (0 : Fin 1) h w)) = _
    refine congrArg (V m c main_arg1) (funext fun a => Fin.ext ?_)
    match a with
    | ⟨0, _⟩ => show win0_1.index t (0 : Fin 3) * 1 + 1 * 0 = win0_2.index t (0 : Fin 3) * 1 + 1 * (y 0).val; omega
    | ⟨1, _⟩ => show win0_1.index t (1 : Fin 3) * 256 + 1 * h.val = h.val; omega
    | ⟨2, _⟩ => show win0_1.index t (2 : Fin 3) * 256 + 1 * w.val = w.val; omega
  exact congrArg₂ Cert.Crps.pixK hA hB

/-- An index of the output array is in point `t`'s block iff each coordinate is in the block's range on its axis. -/
theorem mem_blk (t : Fin cfg0.N) (i : S8x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every index of the output array is in the block of the point of its batch. -/
theorem cover (i : S8x8x128.Idx) : ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 128 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- The output array after the region. -/
theorem final (c : Dev nD) : (dats m 0 c).arrAt 2 cfg0.N = outArr (V m c main_arg0) (V m c main_arg1) :=
  (dats m 0 c).arrAt_eq_of_cover 2 (outArr (V m c main_arg0) (V m c main_arg1)) (fun t _ => flushed_eq m c t) cover

end Cert.KernelArray

end
-- ==== Proof.KernelResult.lean ====
/- The kernel program's result: the host lines after the region take entry (b, 0, 0) of the output array for each
   sample b, add the eight from zero and divide by eight. -/
import proofs.«423601_j32469952758267_3_alg».proof.Proof.KernelArray
import Idealize.ShloMosaic.Lib.StableHlo.Run
import Idealize.ShloMosaic.Lib.ValueIdxRank1

set_option maxRecDepth 16384

noncomputable section

namespace Cert.KernelResult

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelArray

/-- The kernel program's result as a function of the argument arrays. -/
def resultK (a0 : S8x16x256x256.Idx → EReal) (a1 : S8x256x256.Idx → EReal) : EReal :=
  Ideal.div (Ideal.ofBits .f32 0x00000000#32 + ∑ b : Fin 8, sampleK a0 a1 b) (Ideal.ofBits .f32 0x41000000#32)

/-- The slice [0:8, 0:1, 0:1] of the output array, reshaped to [8], holds at b the array's entry (b, 0, 0). -/
theorem sliced_apply (A : S8x8x128.Idx → EReal) (b : Fin 8) :
    shapeCast S8 (extractStridedSlice S8x1x1 ![0, 0, 0] A slices_S8x8x128_S8x1x1_0_0_0) shapeCasts_S8x1x1_S8 (ix1 b)
      = A (ix3 b (0 : Fin 8) (0 : Fin 128)) := by
  refine (shapeCast_apply _ shapeCasts_S8x1x1_S8 (ix1 b) (ix3 b (0 : Fin 1) (0 : Fin 1)) (by
    rw [Shape.rowMajor_val_three, Shape.rowMajor_val_one]
    show (b.val * 1 + 0) * 1 + 0 = b.val
    omega)).trans ?_
  refine extractStridedSlice_apply _ A slices_S8x8x128_S8x1x1_0_0_0 _ (ix3 b (0 : Fin 8) (0 : Fin 128)) (fun a => ?_)
  match a with
  | ⟨0, _⟩ => show b.val = 0 + b.val; omega
  | ⟨1, _⟩ => rfl
  | ⟨2, _⟩ => rfl

/-- A sum over the indices of an [8] array is the sum over its eight coordinates. -/
theorem sum_idx8 (f : S8.Idx → EReal) : ∑ j : S8.Idx, f j = ∑ b : Fin 8, f (ix1 b) :=
  (Equiv.sum_comp idxEquiv1.symm f).symm

variable (m : (ℓ : Loc nD τ sig) → Buf (Elt Ideal) ℓ)

/-- The value the host lines after the region leave in @main's result buffer. -/
theorem tail_eq (c : Dev nD) :
    Pipeline.afterTail₀ cfgs (dats m) 0 (V0 m) [hostOps1] c main_v4
      = (fun _ => resultK (V m c main_arg0) (V m c main_arg1) : S_.Idx → EReal) := by
  have hA : Pipeline.withArrays (cfgs 0).spec c (V0 m c) (fun w => (dats m 0 c).arrAt w (cfgs 0).N) (Proc.tc.devRef main_v0)
      = outArr (V m c main_arg0) (V m c main_arg1) :=
    (Pipeline.withArrays_arr spec0 launch0.win.arr_inj c _ _ 2).trans (final m c)
  unfold Pipeline.afterTail₀
  show StableHlo.after hostOps1 _ (Proc.devRef .tc main_v4) = _
  after_results
  rw [hA]
  funext j
  show Ideal.div (Host.reduceAdd (F := Ideal) (fun i => shapeCast S8 (extractStridedSlice S8x1x1 ![0, 0, 0] (outArr (V m c main_arg0) (V m c main_arg1)) slices_S8x8x128_S8x1x1_0_0_0) shapeCasts_S8x1x1_S8 i) (constant S_ .f32 0x00000000#32) reducesTo_S8_S_d0 h_S_ j) (Ideal.ofBits .f32 0x41000000#32) = _
  unfold resultK
  refine congrArg (fun s : EReal => Ideal.div s (Ideal.ofBits .f32 0x41000000#32)) ?_
  simp only [Host.reduceAdd, Ideal.hostReduceAdd_def]
  refine (Ideal.hostReduceAdd_total reducesTo_S8_S_d0 (fun b => b.elim0) _ _ j).trans ?_
  refine congrArg (fun s : EReal => Ideal.ofBits .f32 0x00000000#32 + s) ?_
  rw [sum_idx8]
  refine Finset.sum_congr rfl fun b _ => ?_
  rw [sliced_apply]
  show sampleK (V m c main_arg0) (V m c main_arg1) ⟨b.val, _⟩ = _
  rfl

end Cert.KernelResult

end
-- ==== Proof.PixelLaw.lean ====
/- The per-pixel law: at finite inputs the kernel's score of a pixel is the reference's.

   Everything is a real number cast into the extended reals.  The kernel adds the sixteen distances to the
   observation one after the other, and the 120 distances of the pairs e < e' one after the other; the
   reference takes the sum over all sixteen members and the sum over all 256 ordered pairs.  The distance
   |x e - x e'| is symmetric and vanishes on the diagonal, so the full double sum is twice the sum over the
   pairs e < e', and 1/128 = 2 * (1/256) pays for the factor two. -/
import proofs.«423601_j32469952758267_3_alg».proof.Proof.Spec
import proofs.«423601_j32469952758267_3_alg».proof.Proof.Consts
import Mathlib.Algebra.BigOperators.Fin
import Mathlib.Algebra.BigOperators.Group.Finset.Sigma
import Mathlib.Algebra.Order.Group.Abs
import Mathlib.Data.EReal.Operations
import Mathlib.Data.Fintype.Prod

noncomputable section

namespace Cert.Crps

open Idealize.ShloMosaic

/- The auxiliary facts live in a namespace of their own; only the law itself is stated in the common one. -/
namespace PixelLaw

/-- The larger of two casts is the cast of the larger. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- On casts of reals the programs' absolute value of a difference is the cast of the real distance. -/
theorem absE_coe_sub (a b : ℝ) : absE ((a : EReal) - (b : EReal)) = ((|a - b| : ℝ) : EReal) := by
  unfold absE
  rw [← EReal.coe_sub, ← EReal.coe_neg, coe_max_real, abs_eq_max_neg]

/-- Adding casts of reals one after the other, from a cast, gives the cast of the real sum. -/
theorem foldl_add_coe {α : Type} (g : α → ℝ) (l : List α) (s : ℝ) :
    l.foldl (fun (acc : EReal) a => acc + ((g a : ℝ) : EReal)) (s : EReal)
      = ((s + (l.map g).sum : ℝ) : EReal) := by
  induction l generalizing s with
  | nil => simp
  | cons a l ih =>
    rw [List.foldl_cons, ← EReal.coe_add, ih, List.map_cons, List.sum_cons, add_assoc]

/-- A finite sum of casts of reals is the cast of the real sum. -/
theorem sum_coe {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A symmetric function that vanishes on the diagonal: its sum over all ordered pairs is twice its sum
    over the pairs whose first entry is the smaller. -/
theorem sum_sum_eq_two_mul_upper {ι : Type} [Fintype ι] [LinearOrder ι] (g : ι → ι → ℝ)
    (hs : ∀ a b, g a b = g b a) (hd : ∀ a, g a a = 0) :
    ∑ e, ∑ e', g e e'
      = 2 * ∑ p ∈ (Finset.univ : Finset (ι × ι)).filter (fun p => p.1 < p.2), g p.1 p.2 := by
  have hU : ∑ p ∈ (Finset.univ : Finset (ι × ι)).filter (fun p => p.1 < p.2), g p.1 p.2
      = ∑ e, ∑ e', if e < e' then g e e' else 0 := by
    rw [Finset.sum_filter, ← Finset.univ_product_univ, Finset.sum_product]
  have hL : ∑ e, ∑ e', (if e' < e then g e e' else 0) = ∑ e, ∑ e', if e < e' then g e e' else 0 := by
    rw [Finset.sum_comm]
    refine Finset.sum_congr rfl fun a _ => Finset.sum_congr rfl fun b _ => ?_
    rw [hs]
  have hsplit : ∀ e e', g e e' = (if e < e' then g e e' else 0) + (if e' < e then g e e' else 0) := by
    intro e e'
    rcases lt_trichotomy e e' with h | h | h
    · rw [if_pos h, if_neg (not_lt_of_gt h), add_zero]
    · subst h
      rw [if_neg (lt_irrefl e), hd, add_zero]
    · rw [if_neg (not_lt_of_gt h), if_pos h, zero_add]
  rw [hU]
  calc ∑ e, ∑ e', g e e'
      = ∑ e, ∑ e', ((if e < e' then g e e' else 0) + (if e' < e then g e e' else 0)) :=
        Finset.sum_congr rfl fun a _ => Finset.sum_congr rfl fun b _ => hsplit a b
    _ = (∑ e, ∑ e', if e < e' then g e e' else 0) + ∑ e, ∑ e', if e' < e then g e e' else 0 := by
        simp only [Finset.sum_add_distrib]
    _ = 2 * ∑ e, ∑ e', if e < e' then g e e' else 0 := by rw [hL]; ring

/-- The list of members is every member of the ensemble, in order. -/
theorem members_eq_finRange : members = List.finRange 16 := by decide

/-- The sum over the ensemble is the sum along the list of members. -/
theorem sum_members (h : Fin 16 → ℝ) : ∑ e : Fin 16, h e = (members.map h).sum := by
  rw [members_eq_finRange, Fin.sum_univ_def]

/-- No pair is listed twice. -/
theorem pairs_nodup : pairs.Nodup := by decide

/-- The listed pairs are exactly the pairs whose first entry is the smaller. -/
theorem mem_pairs_iff : ∀ a b : Fin 16, (a, b) ∈ pairs ↔ a < b := by decide

/-- The sum over the pairs whose first entry is the smaller is the sum along the list of pairs. -/
theorem sum_pairs (g : Fin 16 → Fin 16 → ℝ) :
    ∑ p ∈ (Finset.univ : Finset (Fin 16 × Fin 16)).filter (fun p => p.1 < p.2), g p.1 p.2
      = (pairs.map fun p => g p.1 p.2).sum := by
  rw [← List.sum_toFinset (fun p : Fin 16 × Fin 16 => g p.1 p.2) pairs_nodup]
  refine Finset.sum_congr ?_ fun _ _ => rfl
  ext ⟨a, b⟩
  rw [Finset.mem_filter, List.mem_toFinset, mem_pairs_iff]
  simp

/-- At finite inputs the kernel's first accumulator is the cast of the real sum of the distances to the
    observation. -/
theorem accObs_coe (x : Fin 16 → ℝ) (y : ℝ) :
    accObs (fun e => ((x e : ℝ) : EReal)) ((y : ℝ) : EReal)
      = (((members.map fun e => |x e - y|).sum : ℝ) : EReal) := by
  unfold accObs
  have hstep : (fun (s : EReal) (e : Fin 16) => s + absE ((fun e => ((x e : ℝ) : EReal)) e - ((y : ℝ) : EReal)))
      = fun (s : EReal) (e : Fin 16) => s + ((|x e - y| : ℝ) : EReal) := by
    funext s e
    exact congrArg (fun t => s + t) (absE_coe_sub (x e) y)
  rw [hstep, ← EReal.coe_zero, foldl_add_coe, zero_add]

/-- At finite inputs the kernel's second accumulator is the cast of the real sum of the distances of the
    pairs e < e'. -/
theorem accPairs_coe (x : Fin 16 → ℝ) :
    accPairs (fun e => ((x e : ℝ) : EReal))
      = (((pairs.map fun p => |x p.1 - x p.2|).sum : ℝ) : EReal) := by
  unfold accPairs
  have hstep : (fun (s : EReal) (p : Fin 16 × Fin 16) =>
        s + absE ((fun e => ((x e : ℝ) : EReal)) p.1 - (fun e => ((x e : ℝ) : EReal)) p.2))
      = fun (s : EReal) (p : Fin 16 × Fin 16) => s + ((|x p.1 - x p.2| : ℝ) : EReal) := by
    funext s p
    exact congrArg (fun t => s + t) (absE_coe_sub (x p.1) (x p.2))
  rw [hstep, ← EReal.coe_zero, foldl_add_coe, zero_add]

/-- Over the reals: the sum of the distances over all ordered pairs of members is twice the sum along the
    list of pairs e < e'. -/
theorem sum_sum_abs (x : Fin 16 → ℝ) :
    ∑ e : Fin 16, ∑ e' : Fin 16, |x e - x e'| = 2 * (pairs.map fun p => |x p.1 - x p.2|).sum := by
  rw [sum_sum_eq_two_mul_upper (fun e e' => |x e - x e'|) (fun a b => abs_sub_comm (x a) (x b))
    (fun a => by rw [sub_self, abs_zero])]
  rw [sum_pairs (fun e e' => |x e - x e'|)]

end PixelLaw

open PixelLaw in
/-- The kernel's score of a pixel is the reference's, at finite inputs. -/
theorem pixK_eq_pix (x : Fin 16 → ℝ) (y : ℝ) :
    pixK (fun e => ((x e : ℝ) : EReal)) ((y : ℝ) : EReal) = pix (fun e => ((x e : ℝ) : EReal)) ((y : ℝ) : EReal) := by
  unfold pixK pix
  rw [accObs_coe, accPairs_coe, Cert.Consts.ofBits_inv16, Cert.Consts.ofBits_half, Cert.Consts.ofBits_inv128]
  have hobs : ∑ e : Fin 16, absE ((fun e => ((x e : ℝ) : EReal)) e - ((y : ℝ) : EReal))
      = (((members.map fun e => |x e - y|).sum : ℝ) : EReal) := by
    rw [← sum_members (fun e => |x e - y|), ← sum_coe]
    exact Finset.sum_congr rfl fun e _ => absE_coe_sub (x e) y
  have hpairs : ∑ e : Fin 16, ∑ e' : Fin 16,
        absE ((fun e => ((x e : ℝ) : EReal)) e - (fun e => ((x e : ℝ) : EReal)) e')
      = ((2 * (pairs.map fun p => |x p.1 - x p.2|).sum : ℝ) : EReal) := by
    rw [← sum_sum_abs, ← sum_coe]
    refine Finset.sum_congr rfl fun e _ => ?_
    rw [← sum_coe]
    exact Finset.sum_congr rfl fun e' _ => absE_coe_sub (x e) (x e')
  rw [hobs, hpairs, ← EReal.coe_mul, ← EReal.coe_mul, ← EReal.coe_mul, ← EReal.coe_mul, ← EReal.coe_mul]
  congr 2
  ring

end Cert.Crps

end
-- ==== Proof.KernelIsG.lean ====
/- At finite inputs the kernel program's result is the specification G.

   The kernel's value is  (0 + Σ_b (Σ_{h,w} pixK)·(1/65536)) / 8  with its constants as bit patterns; G is
   (Σ_b (Σ_{h,w} pix)·(1/65536))·(1/8). The patterns denote those reals, dividing by the real 8 is multiplying by 1/8
   on every extended real, and pixel by pixel the kernel's score is the reference's once every entry is a real. -/
import proofs.«423601_j32469952758267_3_alg».proof.Proof.KernelResult
import proofs.«423601_j32469952758267_3_alg».proof.Proof.PixelLaw

noncomputable section

namespace Cert.KernelIsG

open Idealize.ShloMosaic Idealize.ShloMosaic.ValueIdx
open Cert.KernelIdeal Cert.KernelArray Cert.KernelResult

theorem resultK_eq_G (a0 : S8x16x256x256.Idx → EReal) (a1 : S8x256x256.Idx → EReal)
    (h0 : ∀ i, ∃ r : ℝ, a0 i = ((r : ℝ) : EReal)) (h1 : ∀ i, ∃ r : ℝ, a1 i = ((r : ℝ) : EReal)) :
    resultK a0 a1 = Cert.Crps.G a0 a1 := by
  choose x hx using h0
  choose y hy using h1
  unfold resultK Cert.Crps.G
  rw [Cert.Consts.ofBits_zero, zero_add, Cert.Consts.ofBits_8, Ideal.div_coe (by norm_num : (8 : ℝ) ≠ 0)]
  refine congrArg (fun s : EReal => s * ((1 / 8 : ℝ) : EReal)) ?_
  refine Finset.sum_congr rfl fun b _ => ?_
  unfold sampleK Cert.Crps.sampleSum
  rw [Cert.Consts.ofBits_inv65536]
  refine congrArg (fun s : EReal => s * ((1 / 65536 : ℝ) : EReal)) ?_
  refine Finset.sum_congr rfl fun h _ => Finset.sum_congr rfl fun w _ => ?_
  have hf : (fun e : Fin 16 => a0 (ix4 b e h w)) = fun e : Fin 16 => ((x (ix4 b e h w) : ℝ) : EReal) :=
    funext fun e => hx _
  rw [hf, hy]
  exact Cert.Crps.pixK_eq_pix _ _

end Cert.KernelIsG

end
-- ==== Proof.RefValue.lean ====
/- The reference's result is the specification G.

   The reference program is read one operation at a time. Two of its sums run over two axes at once; each
   is shown to be the double sum over the two dropped coordinates by re-indexing the set of source indices
   that drop to a given result index. Every division is by a nonzero real constant, hence a product with the
   reciprocal on every extended real, and every sum starts from zero. -/
import proofs.«423601_j32469952758267_3_alg».proof.Proof.Gen.ReferenceIdeal.Read
import proofs.«423601_j32469952758267_3_alg».proof.Proof.Spec
import proofs.«423601_j32469952758267_3_alg».proof.Proof.Consts
import Idealize.ShloMosaic.PureOps.Ideal.Laws
import Idealize.ShloMosaic.PureOps.Reduce
import Idealize.ShloMosaic.Lib.ValueIdx
import Idealize.ShloMosaic.Lib.ValueIdxRank1
import Idealize.ShloMosaic.Lib.Pipeline.Value

noncomputable section

namespace Cert.RefValue

open Idealize.ShloMosaic Cert.ReferenceIdeal
open Idealize.ShloMosaic.ValueIdx Cert.ReferenceIdeal.Gen

/-! ## The two-axis sums, re-indexed -/

/-- The indices of an [8,16,16,256,256] array that drop to the pixel (b, r, c) when axes 1 and 2 are removed
    are exactly the (b, e, e', r, c); summed over them, a function is its double sum over e and e'. -/
theorem sum_drop_pairs (h : (⟨5, ![8, 16, 16, 256, 256]⟩ : Shape).ReducesTo [1, 2] ⟨3, ![8, 256, 256]⟩)
    (x : (⟨5, ![8, 16, 16, 256, 256]⟩ : Shape).Idx → EReal) (b : Fin 8) (r c : Fin 256) :
    ∑ i ∈ Finset.univ.filter (fun i => h.drop i = ix3 b r c), x i
      = ∑ e : Fin 16, ∑ e' : Fin 16, x (ix5 b e e' r c) := by
  refine Eq.trans ?_ (Fintype.sum_prod_type' (fun e e' : Fin 16 => x (ix5 b e e' r c)))
  have d0 : ∀ i, (h.drop i 0 : Nat) = i 0 := fun i => Shape.ReducesTo.drop_apply_val_of_eq h i 0 0
  have d1 : ∀ i, (h.drop i 1 : Nat) = i 3 := fun i => Shape.ReducesTo.drop_apply_val_of_eq h i 1 3
  have d2 : ∀ i, (h.drop i 2 : Nat) = i 4 := fun i => Shape.ReducesTo.drop_apply_val_of_eq h i 2 4
  have back : ∀ i, h.drop i = ix3 b r c → ix5 b (i 1) (i 2) r c = i := by
    intro i hi
    have e0 : (i 0 : Nat) = b := by rw [← d0 i, hi]
    have e1 : (i 3 : Nat) = r := by rw [← d1 i, hi]
    have e2 : (i 4 : Nat) = c := by rw [← d2 i, hi]
    funext a
    match a with
    | ⟨0, _⟩ => exact Fin.ext e0.symm
    | ⟨1, _⟩ => rfl
    | ⟨2, _⟩ => rfl
    | ⟨3, _⟩ => exact Fin.ext e1.symm
    | ⟨4, _⟩ => exact Fin.ext e2.symm
  refine Finset.sum_nbij' (fun i => ((i 1 : Fin 16), (i 2 : Fin 16))) (fun p => ix5 b p.1 p.2 r c) ?_ ?_ ?_ ?_ ?_
  · intro i _; exact Finset.mem_univ _
  · intro p _
    refine Finset.mem_filter.2 ⟨Finset.mem_univ _, ?_⟩
    funext a
    match a with
    | ⟨0, _⟩ => exact Fin.ext (d0 _)
    | ⟨1, _⟩ => exact Fin.ext (d1 _)
    | ⟨2, _⟩ => exact Fin.ext (d2 _)
  · intro i hi; exact back i (Finset.mem_filter.1 hi).2
  · intro p _; rfl
  · intro i hi; exact congrArg x (back i (Finset.mem_filter.1 hi).2).symm

/-- The indices of an [8,256,256] array that drop to the sample b when axes 1 and 2 are removed are exactly
    the (b, r, c); summed over them, a function is its double sum over the rows and the columns. -/
theorem sum_drop_pixels (h : (⟨3, ![8, 256, 256]⟩ : Shape).ReducesTo [1, 2] ⟨1, ![8]⟩)
    (x : (⟨3, ![8, 256, 256]⟩ : Shape).Idx → EReal) (b : Fin 8) :
    ∑ i ∈ Finset.univ.filter (fun i => h.drop i = ix1 b), x i
      = ∑ r : Fin 256, ∑ c : Fin 256, x (ix3 b r c) := by
  refine Eq.trans ?_ (Fintype.sum_prod_type' (fun r c : Fin 256 => x (ix3 b r c)))
  have d0 : ∀ i, (h.drop i 0 : Nat) = i 0 := fun i => Shape.ReducesTo.drop_apply_val_of_eq h i 0 0
  have back : ∀ i, h.drop i = ix1 b → ix3 b (i 1) (i 2) = i := by
    intro i hi
    have e0 : (i 0 : Nat) = b := by rw [← d0 i, hi]
    funext a
    match a with
    | ⟨0, _⟩ => exact Fin.ext e0.symm
    | ⟨1, _⟩ => rfl
    | ⟨2, _⟩ => rfl
  refine Finset.sum_nbij' (fun i => ((i 1 : Fin 256), (i 2 : Fin 256))) (fun p => ix3 b p.1 p.2) ?_ ?_ ?_ ?_ ?_
  · intro i _; exact Finset.mem_univ _
  · intro p _
    refine Finset.mem_filter.2 ⟨Finset.mem_univ _, ?_⟩
    funext a
    match a with
    | ⟨0, _⟩ => exact Fin.ext (d0 _)
  · intro i hi; exact back i (Finset.mem_filter.1 hi).2
  · intro p _; rfl
  · intro i hi; exact congrArg x (back i (Finset.mem_filter.1 hi).2).symm

/-! ## The index chains of the layout operations -/

theorem idx_obs (b : Fin 8) (e : Fin 16) (r c : Fin 256) :
    Read.idx_main_v0 (Read.idx_main_v1 (ix4 b e r c)) = ix3 b r c := by
  funext a
  match a with
  | ⟨0, _⟩ => rfl
  | ⟨1, _⟩ => rfl
  | ⟨2, _⟩ => rfl

theorem idx_member (b : Fin 8) (k : Fin 16) (r c : Fin 256) :
    Read.idx_main_v4 (ix3 b r c) k = ix4 b k r c := by
  funext a
  match a with
  | ⟨0, _⟩ => rfl
  | ⟨1, _⟩ => rfl
  | ⟨2, _⟩ => rfl
  | ⟨3, _⟩ => rfl

theorem idx_left (b : Fin 8) (e e' : Fin 16) (r c : Fin 256) :
    Read.idx_main_v7 (Read.idx_main_v9 (ix5 b e e' r c)) = ix4 b e r c := by
  funext a
  match a with
  | ⟨0, _⟩ => rfl
  | ⟨1, _⟩ => rfl
  | ⟨2, _⟩ => rfl
  | ⟨3, _⟩ => rfl

theorem idx_right (b : Fin 8) (e e' : Fin 16) (r c : Fin 256) :
    Read.idx_main_v8 (Read.idx_main_v10 (ix5 b e e' r c)) = ix4 b e' r c := by
  funext a
  match a with
  | ⟨0, _⟩ => rfl
  | ⟨1, _⟩ => rfl
  | ⟨2, _⟩ => rfl
  | ⟨3, _⟩ => rfl

/-! ## The two sums over two axes, read at an index -/

/-- The pairwise sum at a pixel: the initial value plus the double sum over the two ensemble coordinates. -/
theorem v13_apply (x0 : (⟨S8x16x256x256, .f32⟩ : BufTy).Contents (Elt Ideal)) (b : Fin 8) (r c : Fin 256) :
    Read.val_main_v13 (F := Ideal) x0 (ix3 b r c)
      = (Read.val_main_cst_1 (F := Ideal)) (Shape.Idx.first h_S_)
        + ∑ e : Fin 16, ∑ e' : Fin 16, (Read.val_main_v12 (F := Ideal) x0) (ix5 b e e' r c) := by
  unfold Read.val_main_v13
  generalize Read.val_main_v12 (F := Ideal) x0 = y
  simp only [Host.reduceAdd, Ideal.hostReduceAdd_def]
  exact congrArg (_ + ·) (sum_drop_pairs reducesTo_S8x16x16x256x256_S8x256x256_d1_2 y b r c)

/-- The sum of a sample's pixels: the initial value plus the double sum over the rows and the columns. -/
theorem v19_apply (x0 : (⟨S8x16x256x256, .f32⟩ : BufTy).Contents (Elt Ideal)) (x1 : (⟨S8x256x256, .f32⟩ : BufTy).Contents (Elt Ideal))
    (b : Fin 8) :
    Read.val_main_v19 (F := Ideal) x0 x1 (ix1 b)
      = (Read.val_main_cst_4 (F := Ideal)) (Shape.Idx.first h_S_)
        + ∑ r : Fin 256, ∑ c : Fin 256, (Read.val_main_v18 (F := Ideal) x0 x1) (ix3 b r c) := by
  unfold Read.val_main_v19
  generalize Read.val_main_v18 (F := Ideal) x0 x1 = y
  simp only [Host.reduceAdd, Ideal.hostReduceAdd_def]
  exact congrArg (_ + ·) (sum_drop_pixels reducesTo_S8x256x256_S8_d1_2 y b)

/-! ## The stages -/

/-- The per-pixel stage is the score of the pixel. -/
theorem v18_eq_pix (x0 : (⟨S8x16x256x256, .f32⟩ : BufTy).Contents (Elt Ideal)) (x1 : (⟨S8x256x256, .f32⟩ : BufTy).Contents (Elt Ideal))
    (b : Fin 8) (r c : Fin 256) :
    Read.val_main_v18 (F := Ideal) x0 x1 (ix3 b r c)
      = Cert.Crps.pix (fun e => x0 (ix4 b e r c)) (x1 (ix3 b r c)) := by
  rw [Read.val_main_v18_apply, Read.val_main_v6_apply, Read.val_main_v4_apply, Read.val_main_v5_apply,
    Read.val_main_cst_0_apply, Read.val_main_cst_apply, Read.val_main_v17_apply, Read.val_main_v16_apply,
    Read.val_main_cst_3_apply, Read.val_main_v15_apply, v13_apply, Read.val_main_v14_apply,
    Read.val_main_cst_2_apply, Read.val_main_cst_1_apply]
  simp only [Read.val_main_v3_apply, Read.val_main_v2_apply, Read.val_main_v1_apply, Read.val_main_v0_apply,
    Read.val_main_v12_apply, Read.val_main_v11_apply, Read.val_main_v9_apply, Read.val_main_v10_apply,
    Read.val_main_v7_apply, Read.val_main_v8_apply, idx_obs, idx_member, idx_left, idx_right]
  simp only [Ideal.subf_def, Ideal.mulf_def, Ideal.hostDivf_def, Ideal.hostAbsf_def, Ideal.absf_def, Ideal.ofBits_def,
    Cert.Consts.ofBits_zero, Cert.Consts.ofBits_16, Cert.Consts.ofBits_256, Cert.Consts.ofBits_half, zero_add,
    Ideal.div_coe (by norm_num : (16 : ℝ) ≠ 0), Ideal.div_coe (by norm_num : (256 : ℝ) ≠ 0)]
  rfl

/-- A sample's stage is the sum of its pixels' scores times the reciprocal of the pixel count. -/
theorem v21_eq_sample (x0 : (⟨S8x16x256x256, .f32⟩ : BufTy).Contents (Elt Ideal)) (x1 : (⟨S8x256x256, .f32⟩ : BufTy).Contents (Elt Ideal))
    (b : Fin 8) :
    Read.val_main_v21 (F := Ideal) x0 x1 (ix1 b)
      = Cert.Crps.sampleSum x0 x1 b * ((1 / 65536 : ℝ) : EReal) := by
  rw [Read.val_main_v21_apply, v19_apply, Read.val_main_v20_apply, Read.val_main_cst_5_apply,
    Read.val_main_cst_4_apply]
  simp only [v18_eq_pix, Ideal.hostDivf_def, Ideal.ofBits_def, Cert.Consts.ofBits_zero, Cert.Consts.ofBits_65536,
    zero_add, Ideal.div_coe (by norm_num : (65536 : ℝ) ≠ 0)]
  rfl

/-- A sum over the indices of a vector of eight is the sum over its one coordinate. -/
theorem sum_idx1 (f : (⟨1, ![8]⟩ : Shape).Idx → EReal) : ∑ j, f j = ∑ b : Fin 8, f (ix1 b) :=
  (Equiv.sum_comp (idxEquiv1 (n := 8)).symm f).symm

/-- The reference's result is the specification. -/
theorem ref_eq_G (x0 : (⟨S8x16x256x256, .f32⟩ : BufTy).Contents (Elt Ideal)) (x1 : (⟨S8x256x256, .f32⟩ : BufTy).Contents (Elt Ideal)) :
    Cert.ReferenceIdeal.Read.val_main_v23 (F := Ideal) x0 x1 = fun _ => Cert.Crps.G x0 x1 := by
  funext i
  rw [Read.val_main_v23_apply, Read.val_main_v22_apply, Read.val_main_cst_7_apply, Read.val_main_cst_6_apply,
    sum_idx1]
  simp only [v21_eq_sample, Ideal.hostDivf_def, Ideal.ofBits_def,
    Cert.Consts.ofBits_zero, Cert.Consts.ofBits_8, zero_add, Ideal.div_coe (by norm_num : (8 : ℝ) ≠ 0)]
  rfl

end Cert.RefValue

end
-- ==== Proof.Finite.lean ====
import proofs.«423601_j32469952758267_3_alg».proof.Proof.Gen.Pre_finite_inputs
import Idealize.ShloMosaic.Lib.ReduceAll
import Idealize.ShloMosaic.PureOps.Ideal.Laws
import Idealize.ShloMosaic.Lib.ValueIdx

/-!
  From the printed finiteness predicate to "every entry is a real number".

  The predicate says: for both inputs, every entry x satisfies |x| < +∞, where |x| is max x (-x) over the
  extended reals. The only extended reals whose absolute value is not strictly below ⊤ are ⊥ and ⊤ themselves,
  so each entry is the cast of a real.
-/

namespace Cert.Finite

open Idealize.ShloMosaic Cert.Pre_finite_inputs

variable [Cert.Pre_finite_inputs.Facts]

/-- The result shape of a reduction over every axis has exactly one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max a (-a) lies strictly below ⊤ is a real: at ⊥ the
    negation is ⊤, at ⊤ the value itself is, and in both cases the maximum is ⊤. -/
theorem real_of_abs_lt_top (a : EReal) (h : max a (-a) < ⊤) : ∃ r : ℝ, a = ((r : ℝ) : EReal) := by
  induction a using EReal.rec with
  | bot => exact absurd h (by simp)
  | coe r => exact ⟨r, rfl⟩
  | top => exact absurd h (by simp)

/-- One entry of the compared array: |a| < +∞ answered true makes a a real. -/
theorem real_of_entry (a : Ideal .f32)
    (h : FloatOps.cmpf .olt (FloatOps.hostAbsf a) (Ideal.ofBits .f32 0x7F800000#32) = 1#1) :
    ∃ r : ℝ, a = ((r : ℝ) : EReal) := by
  rw [Ideal.hostAbsf_def, Ideal.cmpf_def, Ideal.absf_def, inf_word] at h
  refine real_of_abs_lt_top a ?_
  by_contra hn
  simp [Ideal.cmp, hn] at h

theorem finite_of_pre (x0 : (⟨S8x16x256x256, .f32⟩ : BufTy).Contents (Elt Ideal)) (x1 : (⟨S8x256x256, .f32⟩ : BufTy).Contents (Elt Ideal))
    (h : Cert.Pre_finite_inputs.fn (F := Ideal) x0 x1 = fun _ => 1#1) :
    (∀ i, ∃ r : ℝ, x0 i = ((r : ℝ) : EReal)) ∧ (∀ i, ∃ r : ℝ, x1 i = ((r : ℝ) : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_entry (x0 i) (Host.reduce_andi_all _ _ _ _ _ ha i)
  · exact real_of_entry (x1 i) (Host.reduce_andi_all _ _ _ _ _ hb i)

end Cert.Finite
-- ==== Proof.lean ====
/- The proof of `Cert.Claim`: a kernel computing the CRPS energy score, against its jnp reference, over the extended reals.

   For each of the 8 samples and each of its 256 × 256 pixels let f_e (e < 16) be the ensemble members and o the
   observation. The score of a pixel is  (1/16)·Σ_e |f_e − o| − (1/2)·(1/256)·Σ_{e,e'} |f_e − f_e'| ;  the result is the mean
   over the samples of the mean over a sample's pixels (`Cert.Crps.G`, Proof/Spec.lean).
   The reference computes exactly that, with divisions by 16, 256, 65536 and 8 (Proof/RefValue.lean: its run read
   one operation at a time; this holds at every input).
   The kernel walks a sample in eight strips of 32 rows. In a strip it adds the 16 distances to the observation one after
   the other and the 120 distances of the pairs e < e' one after the other, weighs the second sum by 2/256, sums the
   strip's scores over lanes and rows and carries the total; after the last strip it multiplies by 1/65536 and stores the
   scalar over the sample's block of the output; the host lines after the region add the eight samples and divide by 8
   (Proof/KernelTrip.lean, TripValue.lean, KernelBlock.lean, KernelArray.lean, KernelResult.lean).
   The two agree when every entry is finite (Proof/Finite.lean, from the precondition): the distance is symmetric and
   zero on the diagonal, so the sum over all ordered pairs is twice the sum over e < e' (Proof/PixelLaw.lean), and every
   constant is a power of two (Proof/Consts.lean); Proof/KernelIsG.lean joins them.
   The three frames are the generated ones; the idealization rewrote nothing, so `preserves` is trivial. -/
import proofs.«423601_j32469952758267_3_alg».proof.Defs
import proofs.«423601_j32469952758267_3_alg».proof.Proof.Gen.Kernel
import proofs.«423601_j32469952758267_3_alg».proof.Proof.Gen.Kernel.Skeleton
import proofs.«423601_j32469952758267_3_alg».proof.Proof.Gen.Kernel.Loops
import proofs.«423601_j32469952758267_3_alg».proof.Proof.Gen.Kernel.Launch
import proofs.«423601_j32469952758267_3_alg».proof.Proof.Gen.Kernel.Points
import proofs.«423601_j32469952758267_3_alg».proof.Proof.Gen.Kernel.Frame
import proofs.«423601_j32469952758267_3_alg».proof.Proof.Gen.KernelIdeal
import proofs.«423601_j32469952758267_3_alg».proof.Proof.Gen.KernelIdeal.Skeleton
import proofs.«423601_j32469952758267_3_alg».proof.Proof.Gen.KernelIdeal.Loops
import proofs.«423601_j32469952758267_3_alg».proof.Proof.Gen.KernelIdeal.Launch
import proofs.«423601_j32469952758267_3_alg».proof.Proof.Gen.KernelIdeal.Points
import proofs.«423601_j32469952758267_3_alg».proof.Proof.Gen.KernelIdeal.Frame
import proofs.«423601_j32469952758267_3_alg».proof.Proof.Gen.ReferenceIdeal
import proofs.«423601_j32469952758267_3_alg».proof.Proof.Gen.Pre_finite_inputs
import proofs.«423601_j32469952758267_3_alg».proof.Proof.Gen.ReferenceIdeal.Run
import proofs.«423601_j32469952758267_3_alg».proof.Proof.Gen.ReferenceIdeal.Read
import proofs.«423601_j32469952758267_3_alg».proof.Proof.KernelIsG
import proofs.«423601_j32469952758267_3_alg».proof.Proof.RefValue
import proofs.«423601_j32469952758267_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `G` of the (agreeing, finite) argument arrays in their result. -/
theorem algebraic : Cert.algebraic_KernelIdeal_ReferenceIdeal := by
  intro m ρ m' ρ' hpre hagree
  refine ⟨fun c => (fun _ => Cert.Crps.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ?_) (Cert.KernelIdeal.Gen.run_main m ρ)
    obtain ⟨hf0, hf1⟩ := Cert.Finite.finite_of_pre _ _ (hpre c)
    refine ⟨?_, ?_, ?_⟩
    · refine ((h c).2 Cert.KernelIdeal.main_v4 (Pipeline.mem_restRefs_of _ rfl (by decide))).trans ?_
      rw [Cert.KernelResult.tail_eq m c]
      funext _
      exact Cert.KernelIsG.resultK_eq_G _ _ hf0 hf1
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).1 1).trans (((Cert.KernelIdeal.Gen.dats m 0 c).arrAt_in 1 rfl _).trans
        ((Cert.KernelIdeal.Gen.A_eq m c 1).trans (Cert.KernelIdeal.Gen.V_main_arg1 m c)))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, Cert.RefValue.ref_eq_G, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
